-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S1600000 : Shape := ⟨1, ![1600000]⟩
abbrev S192x64 : Shape := ⟨2, ![192, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000x64 .f32) (main_arg2 : IVec S1600000 32) (main_arg3 : IVec S1600000 32) (main_arg4 : FVec F S192x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000x64 : Shape := ⟨2, ![1600000, 64]⟩
abbrev S1600000 : Shape := ⟨1, ![1600000]⟩
abbrev S192x64 : Shape := ⟨2, ![192, 64]⟩
abbrev S64 : Shape := ⟨1, ![64]⟩
abbrev S_ : Shape := ⟨0, ![]⟩
abbrev S1600000x1 : Shape := ⟨2, ![1600000, 1]⟩
abbrev S64x64 : Shape := ⟨2, ![64, 64]⟩
abbrev S1x64 : Shape := ⟨2, ![1, 64]⟩
abbrev S10000x64 : Shape := ⟨2, ![10000, 64]⟩

abbrev nBuf : Space → Nat
  | .hbm => 28
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S192x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S1x64, .f32⟩
  | .hbm, ⟨27, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S1600000 : Shape := ⟨1, ![1600000]⟩
abbrev S192x64 : Shape := ⟨2, ![192, 64]⟩
abbrev S64 : Shape := ⟨1, ![64]⟩
abbrev S_ : Shape := ⟨0, ![]⟩
abbrev S1600000x1 : Shape := ⟨2, ![1600000, 1]⟩
abbrev S100000x192 : Shape := ⟨2, ![100000, 192]⟩
abbrev S1x64 : Shape := ⟨2, ![1, 64]⟩

abbrev nBuf : Space → Nat
  | .hbm => 31
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S192x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x192, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x192_S192x64_S100000x64_1_0_0_1_n_n_wf : DotDims.WF S100000x192 S192x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.Layer.lean ====
/-
  The mathematics shared by the two programs, stated over plain arrays of extended reals and literal shapes.

  One graph layer: for node `r` and output feature `c`,
      out r c = max ( (Σ_k nf r k · W k c) + (Σ_k mh r k · W (64+k) c) + (Σ_k me r k · W (128+k) c) + b c , 0 )
  where `nf` are the node features, `mh` and `me` the two aggregated message arrays (any arrays here: both
  programs compute them by the same host operations), `W` the [192, 64] weight and `b` the bias.

  The kernel multiplies against the three [64, 64] row bands of `W` and adds the three products; the reference
  multiplies the [N, 192] concatenation of `nf`, `mh`, `me` against the whole `W`. The two agree because a sum
  over 192 contraction indices is the sum of its three consecutive stretches of 64: only commutativity and
  associativity of addition are used, so the identity holds on the extended reals with no finiteness assumption.
-/
import Idealize.ShloMosaic.PureOps.Ideal
import Idealize.ShloMosaic.Lib.ValueIdx
import Idealize.ShloMosaic.Lib.ValueLayout

noncomputable section

namespace Cert.Layer

open Idealize.ShloMosaic Idealize.ShloMosaic.ValueIdx

/-- Node-by-feature arrays, the weight, one of its three row bands, the bias, and the bias as one row. -/
abbrev SN : Shape := ⟨2, ![100000, 64]⟩
abbrev SW : Shape := ⟨2, ![192, 64]⟩
abbrev Sw : Shape := ⟨2, ![64, 64]⟩
abbrev Sb : Shape := ⟨1, ![64]⟩
abbrev Sb1 : Shape := ⟨2, ![1, 64]⟩
abbrev SC : Shape := ⟨2, ![100000, 192]⟩

/-- The float zero both programs clamp against, kept as its word: the same on both sides, never evaluated. -/
abbrev zero : EReal := Ideal.ofBits .f32 0x00000000#32

/-- A sum over 192 indices is the sum over its three consecutive stretches of 64, in any commutative monoid. -/
theorem sum_192_split {M : Type*} [AddCommMonoid M] (f : Fin 192 → M) :
    ∑ k : Fin 192, f k
      = ((∑ k : Fin 64, f ⟨k.val, by omega⟩) + ∑ k : Fin 64, f ⟨64 + k.val, by omega⟩)
          + ∑ k : Fin 64, f ⟨128 + k.val, by omega⟩ := by
  have h1 := Fin.sum_univ_add (M := M) (fun i : Fin (128 + 64) => f i)
  have h2 := Fin.sum_univ_add (M := M) (fun i : Fin (64 + 64) => f ⟨i.val, by omega⟩)
  exact h1.trans (congrArg (· + ∑ k : Fin 64, f ⟨128 + k.val, by omega⟩) h2)

/-- The layer with the weight given as its three [64, 64] row bands and the bias as a [1, 64] row: the kernel's
    arrangement, the three products added left to right, then the bias, then the clamp at zero. Over any number
    of rows: a block of rows of the arrays, or the arrays whole. -/
def bands {n : Nat} (nf mh me : (⟨2, ![n, 64]⟩ : Shape).Idx → EReal) (w1 w2 w3 : Sw.Idx → EReal) (b1 : Sb1.Idx → EReal)
    (r : Fin n) (c : Fin 64) : EReal :=
  max ((((∑ k : Fin 64, nf (ix2 r k) * w1 (ix2 k c)) + ∑ k : Fin 64, mh (ix2 r k) * w2 (ix2 k c))
        + ∑ k : Fin 64, me (ix2 r k) * w3 (ix2 k c)) + b1 (ix2 (0 : Fin 1) c)) zero

/-- The layer over the whole weight: row band `j` of `W` starts at row `64 j`. -/
def layer (nf mh me : SN.Idx → EReal) (W : SW.Idx → EReal) (b : Sb.Idx → EReal)
    (r : Fin 100000) (c : Fin 64) : EReal :=
  max ((((∑ k : Fin 64, nf (ix2 r k) * W (ix2 (⟨k.val, by omega⟩ : Fin 192) c))
          + ∑ k : Fin 64, mh (ix2 r k) * W (ix2 (⟨64 + k.val, by omega⟩ : Fin 192) c))
        + ∑ k : Fin 64, me (ix2 r k) * W (ix2 (⟨128 + k.val, by omega⟩ : Fin 192) c)) + b (ix1 c)) zero

/-- The band arrangement over the three row bands CUT from the whole weight, and the bias laid as one row, is the
    layer over the whole weight: band `j` at row `k` is the weight at row `64 j + k`. -/
theorem bands_of_slices (nf mh me : SN.Idx → EReal) (W : SW.Idx → EReal) (b : Sb.Idx → EReal)
    (h0 : SW.Slices ![0, 0] Sw) (h1 : SW.Slices ![64, 0] Sw) (h2 : SW.Slices ![128, 0] Sw) (hb : Sb.ShapeCasts Sb1)
    (r : Fin 100000) (c : Fin 64) :
    bands nf mh me (extractStridedSlice Sw ![0, 0] W h0) (extractStridedSlice Sw ![64, 0] W h1)
        (extractStridedSlice Sw ![128, 0] W h2) (shapeCast Sb1 b hb) r c
      = layer nf mh me W b r c := by
  unfold bands layer
  simp only [slice2_axis0_eq, shapeCast_a_1a_apply, Nat.zero_add]

/-- The layer as an array over [100000, 64]. -/
def layerArr (nf mh me : SN.Idx → EReal) (W : SW.Idx → EReal) (b : Sb.Idx → EReal) : SN.Idx → EReal :=
  fun i => layer nf mh me W b (i 0) (i 1)

end Cert.Layer

end
-- ==== Proof.RefLayer.lean ====
/-
  The reference's result, index by index, is the layer of `Layer.lean` over the node features, the two aggregated
  message arrays the reference's own host operations produce, the weight and the bias.

  The reference concatenates the three [100000, 64] arrays along the feature axis and contracts the 192 joined
  columns against the whole weight. Column `k` of the concatenation is column `k` of the first array for
  `k < 64`, column `k - 64` of the second for `64 ≤ k < 128`, column `k - 128` of the third otherwise; so the sum
  over the 192 columns, cut into its three stretches of 64, is the sum of the three band products.
-/
import proofs.«140429_j64158221468060_1_alg».proof.Proof.Gen.ReferenceIdeal.Read
import proofs.«140429_j64158221468060_1_alg».proof.Proof.Layer

noncomputable section

namespace Cert.RefLayer

open Cert.ReferenceIdeal Cert.ReferenceIdeal.Gen Cert.ReferenceIdeal.Read
open Idealize.ShloMosaic Idealize.ShloMosaic.ValueIdx

/-- The three-way concatenation along the feature axis, read in its first stretch of columns. -/
theorem cat_first (A B C : S100000x64.Idx → EReal) (r : Fin 100000) (k : Fin 64) :
    concatenate S100000x192 1 [⟨S100000x64, A⟩, ⟨S100000x64, B⟩, ⟨S100000x64, C⟩]
        concatenates_S100000x64_S100000x64_S100000x64_S100000x192_d1 (ix2 r (⟨k.val, by omega⟩ : Fin 192))
      = A (ix2 r k) :=
  concatenate_apply_piece (1 : Fin S100000x192.rank) [⟨S100000x64, A⟩, ⟨S100000x64, B⟩, ⟨S100000x64, C⟩]
    concatenates_S100000x64_S100000x64_S100000x64_S100000x192_d1 (ix2 r (⟨k.val, by omega⟩ : Fin 192)) 0 (by decide : 0 < 3)
    S100000x64 A rfl rfl 0 rfl (ix2 r k)
    (fun b hb => by
      match b with
      | ⟨0, _⟩ => rfl
      | ⟨1, _⟩ => exact absurd rfl hb)
    (Nat.zero_add _)

/-- The same in its second stretch: the second array, 64 columns to the left. -/
theorem cat_second (A B C : S100000x64.Idx → EReal) (r : Fin 100000) (k : Fin 64) :
    concatenate S100000x192 1 [⟨S100000x64, A⟩, ⟨S100000x64, B⟩, ⟨S100000x64, C⟩]
        concatenates_S100000x64_S100000x64_S100000x64_S100000x192_d1 (ix2 r (⟨64 + k.val, by omega⟩ : Fin 192))
      = B (ix2 r k) :=
  concatenate_apply_piece (1 : Fin S100000x192.rank) [⟨S100000x64, A⟩, ⟨S100000x64, B⟩, ⟨S100000x64, C⟩]
    concatenates_S100000x64_S100000x64_S100000x64_S100000x192_d1 (ix2 r (⟨64 + k.val, by omega⟩ : Fin 192)) 1 (by decide : 1 < 3)
    S100000x64 B rfl rfl 64 rfl (ix2 r k)
    (fun b hb => by
      match b with
      | ⟨0, _⟩ => rfl
      | ⟨1, _⟩ => exact absurd rfl hb)
    rfl

/-- And in its third: the third array, 128 columns to the left. -/
theorem cat_third (A B C : S100000x64.Idx → EReal) (r : Fin 100000) (k : Fin 64) :
    concatenate S100000x192 1 [⟨S100000x64, A⟩, ⟨S100000x64, B⟩, ⟨S100000x64, C⟩]
        concatenates_S100000x64_S100000x64_S100000x64_S100000x192_d1 (ix2 r (⟨128 + k.val, by omega⟩ : Fin 192))
      = C (ix2 r k) :=
  concatenate_apply_piece (1 : Fin S100000x192.rank) [⟨S100000x64, A⟩, ⟨S100000x64, B⟩, ⟨S100000x64, C⟩]
    concatenates_S100000x64_S100000x64_S100000x64_S100000x192_d1 (ix2 r (⟨128 + k.val, by omega⟩ : Fin 192)) 2 (by decide : 2 < 3)
    S100000x64 C rfl rfl 128 rfl (ix2 r k)
    (fun b hb => by
      match b with
      | ⟨0, _⟩ => rfl
      | ⟨1, _⟩ => exact absurd rfl hb)
    rfl

/-- The contraction's left index at output `(r, c)` and column `k` is `(r, k)` of the concatenation; -/
theorem lidx_eq (r : Fin 100000) (c : Fin 64) (k : Fin 192) :
    lidx_main_v14 (ix2 r c) k = (ix2 r k : S100000x192.Idx) :=
  funext fun a => Fin.ext (by
    match a with
    | ⟨0, _⟩ => rfl
    | ⟨1, _⟩ => rfl)

/-- its right index is `(k, c)` of the weight; -/
theorem ridx_eq (r : Fin 100000) (c : Fin 64) (k : Fin 192) :
    ridx_main_v14 (ix2 r c) k = (ix2 k c : S192x64.Idx) :=
  funext fun a => Fin.ext (by
    match a with
    | ⟨0, _⟩ => rfl
    | ⟨1, _⟩ => rfl)

/-- and the bias, broadcast as a row and then down the rows, is read at the output's column. -/
theorem bidx_eq (r : Fin 100000) (c : Fin 64) :
    idx_main_v15 (idx_main_v16 (ix2 r c)) = (ix1 c : S64.Idx) :=
  funext fun a => Fin.ext (by
    match a with
    | ⟨0, _⟩ => rfl)

/-- THE REFERENCE IS THE LAYER: its last stage, at the ideal instance, is `Layer.layerArr` of the node features,
    its own two message stages, the weight and the bias. -/
theorem val_eq_layer (x0 : S100000x64.Idx → EReal) (x1 : S1600000x64.Idx → EReal)
    (x2 x3 : (⟨S1600000, .i32⟩ : BufTy).Contents (Elt Ideal)) (x4 : S192x64.Idx → EReal) (x5 : S64.Idx → EReal) :
    val_main_v18 (F := Ideal) x0 x1 x2 x3 x4 x5
      = Cert.Layer.layerArr x0 (val_main_v9 (F := Ideal) x0 x2 x3) (val_main_v12 (F := Ideal) x1 x3) x4 x5 := by
  funext i
  obtain ⟨r, c, rfl⟩ : ∃ (r : Fin 100000) (c : Fin 64), i = ix2 r c := ⟨i 0, i 1, eq_ix2 i⟩
  rw [val_main_v18_apply, val_main_v17_apply, val_main_v14_apply, val_main_v16_apply, val_main_v15_apply,
    val_main_call0_v0_apply, val_main_call0_cst_apply, Cert.Layer.sum_192_split]
  simp only [lidx_eq, ridx_eq, bidx_eq]
  unfold val_main_v13
  simp only [cat_first, cat_second, cat_third]
  rfl

end Cert.RefLayer

end
-- ==== Proof.KernelPayload.lean ====
/-
  The kernel body's one stored value, read at an element of its [10000, 64] block.

  The body casts each of its three row blocks and the three weight bands to bf16 (the identity on the extended
  reals), multiplies each block against its band into a zero accumulator (so each product is the plain sum over
  the 64 contracted columns), adds the three products left to right, adds the bias row broadcast down the rows, and
  clamps at zero. At element `(p, q)` that is `Layer.bands` of the blocks at `(p, q)`.
-/
import proofs.«140429_j64158221468060_1_alg».proof.Proof.Gen.KernelIdeal.Skeleton
import proofs.«140429_j64158221468060_1_alg».proof.Proof.Layer
import Idealize.ShloMosaic.PureOps.Ideal.Laws
import Idealize.ShloMosaic.Lib.Pipeline.Value

noncomputable section

namespace Cert.KernelLayer

open Cert.KernelIdeal Cert.KernelIdeal.Gen
open Idealize.ShloMosaic Idealize.ShloMosaic.ValueIdx

/-! ## The product's operand indices: rows of the block against columns of the band -/

theorem lhs_band_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs_band_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_band_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_band_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- One block-by-band product into the zero accumulator, at element `(p, q)`: the sum over the 64 shared
    columns of block row `p` against band column `q` (the narrowing casts are the identity here). -/
theorem band_product (x : Vec Ideal S10000x64 .f32) (w : Vec Ideal S64x64 .f32) (p : Fin 10000) (q : Fin 64) :
    matmul dot_S10000x64_S64x64_S10000x64_1_0_0_1_n_n none (truncf .bf16 x bitsLt_bf16_f32)
        (truncf .bf16 w bitsLt_bf16_f32) (constant (F := Ideal) S10000x64 .f32 0x00000000#32) (ix2 p q)
      = ∑ k : Fin 64, x (ix2 p k) * w (ix2 k q) := by
  refine (Ideal.matmul_constant_zero_apply dot_S10000x64_S64x64_S10000x64_1_0_0_1_n_n none
    (truncf .bf16 x bitsLt_bf16_f32) (truncf .bf16 w bitsLt_bf16_f32) (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k :=
    funext fun a => Fin.ext (by
      match a with
      | ⟨0, _⟩ => exact lhs_band_0 _ _
      | ⟨1, _⟩ => exact (lhs_band_1 _ _).trans hk)
  have er : dot_S10000x64_S64x64_S10000x64_1_0_0_1_n_n.rhsIdx (ix2 p q)
      ((contrEquiv1 dot_S10000x64_S64x64_S10000x64_1_0_0_1_n_n 64 rfl rfl).symm k) = ix2 k q :=
    funext fun a => Fin.ext (by
      match a with
      | ⟨0, _⟩ => exact (rhs_band_0 _ _).trans hk
      | ⟨1, _⟩ => exact rhs_band_1 _ _)
  rw [el, er]
  rfl

/-- THE STORED VALUE at element `(p, q)` of the block is the band arrangement of the loaded blocks there. -/
theorem payload_at (x0 x1 x2 : Vec Ideal S10000x64 .f32) (x3 x4 x5 : Vec Ideal S64x64 .f32) (x6 : Vec Ideal S1x64 .f32)
    (p : Fin 10000) (q : Fin 64) :
    k0_pay1 (F := Ideal) x0 x1 x2 x3 x4 x5 x6 (ix2 p q) = Cert.Layer.bands (n := 10000) x0 x1 x2 x3 x4 x5 x6 p q := by
  unfold k0_pay1 Cert.Layer.bands
  simp only [shapeCast_self]
  rw [maximumf_apply, addf_apply, addf_apply, addf_apply, band_product, band_product, band_product,
    broadcastTo_1b_ab_apply]
  rfl

end Cert.KernelLayer

end
-- ==== Proof.HostPrefix.lean ====
/-
  What the host operations before the kernel's call leave in the buffers the call reads.

  The two message arrays are the reference's own message stages: both programs build them by the same host
  operations on the same arguments (negative source indices wrapped by adding the node count, the node features
  gathered at the wrapped sources, and the gathered rows, and likewise the edge features, scatter-added into zero
  arrays at the destination indices), and the two programs' texts of these operations coincide term by term.
  The three weight bands are rows 0–63, 64–127 and 128–191 cut from the weight; the bias row is the bias laid as
  a [1, 64] array.
-/
import proofs.«140429_j64158221468060_1_alg».proof.Proof.Gen.KernelIdeal.Frame
import proofs.«140429_j64158221468060_1_alg».proof.Proof.Gen.ReferenceIdeal.Read
import Idealize.ShloMosaic.Lib.StableHlo.Run

set_option maxRecDepth 16384

noncomputable section

namespace Cert.KernelLayer

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The node-feature messages: gathered at the wrapped sources, summed by destination. -/
theorem node_messages_eq (c : Dev nD) :
    (V m c main_v9 : S100000x64.Idx → EReal)
      = Cert.ReferenceIdeal.Read.val_main_v9 (F := Ideal) (m ((c : Thread nD τ).loc main_arg0))
          (m ((c : Thread nD τ).loc main_arg2)) (m ((c : Thread nD τ).loc main_arg3)) := by
  dsimp only [V, hostOps0]; after_results; rfl

/-- The edge-feature messages: summed by destination. -/
theorem edge_messages_eq (c : Dev nD) :
    (V m c main_v12 : S100000x64.Idx → EReal)
      = Cert.ReferenceIdeal.Read.val_main_v12 (F := Ideal) (m ((c : Thread nD τ).loc main_arg1))
          (m ((c : Thread nD τ).loc main_arg3)) := by
  dsimp only [V, hostOps0]; after_results; rfl

/-- The three weight bands, cut from the weight at rows 0, 64 and 128. -/
theorem band1_eq (c : Dev nD) : (V m c main_v13 : S64x64.Idx → EReal)
    = extractStridedSlice S64x64 ![0, 0] (m ((c : Thread nD τ).loc main_arg4)) slices_S192x64_S64x64_0_0 := by
  dsimp only [V, hostOps0]; after_results
theorem band2_eq (c : Dev nD) : (V m c main_v14 : S64x64.Idx → EReal)
    = extractStridedSlice S64x64 ![64, 0] (m ((c : Thread nD τ).loc main_arg4)) slices_S192x64_S64x64_64_0 := by
  dsimp only [V, hostOps0]; after_results
theorem band3_eq (c : Dev nD) : (V m c main_v15 : S64x64.Idx → EReal)
    = extractStridedSlice S64x64 ![128, 0] (m ((c : Thread nD τ).loc main_arg4)) slices_S192x64_S64x64_128_0 := by
  dsimp only [V, hostOps0]; after_results

/-- The bias as one row. -/
theorem bias_row_eq (c : Dev nD) : (V m c main_v16 : S1x64.Idx → EReal)
    = shapeCast S1x64 (m ((c : Thread nD τ).loc main_arg5)) shapeCasts_S64_S1x64 := by
  dsimp only [V, hostOps0]; after_results; rfl

end Cert.KernelLayer

end
-- ==== Proof.KernelArray.lean ====
/-
  From the kernel's blocks to its whole result array.

  The grid has ten points; point `t` reads rows `10000 t … 10000 t + 9999` of the node features and of the two
  message arrays, reads the three weight bands and the bias row whole, and writes back the same rows of the result.
  So what point `t` writes is block `t` of ONE array, the band arrangement of the whole arrays; the ten blocks
  tile the [100000, 64] result, which therefore ends holding that array. The bands and the bias row are, by the
  host operations before the call, the three row bands cut from the weight and the bias laid as one row, so the
  result is the layer over the whole weight.
-/
import proofs.«140429_j64158221468060_1_alg».proof.Proof.Gen.KernelIdeal.Value
import proofs.«140429_j64158221468060_1_alg».proof.Proof.KernelPayload
import proofs.«140429_j64158221468060_1_alg».proof.Proof.HostPrefix

set_option maxRecDepth 16384

noncomputable section

namespace Cert.KernelLayer

open Cert.KernelIdeal Cert.KernelIdeal.Gen Cert.KernelIdeal.Value
open Idealize.ShloMosaic Idealize.ShloMosaic.TcCoe Idealize.SL.Sem
open Idealize.ShloMosaic.ValueIdx
open Idealize.ShloMosaic.Pipeline (Dat)

theorem offs_zero : (![0, 0] : Fin 2 → Nat) = fun _ => 0 := funext fun a => by fin_cases a <;> rfl

/-- The printed index maps over the ten grid points: the three row-blocked inputs move with the output's row
    block and stay in column block 0; the bands and the bias row are always block (0, 0); the output's row block
    is below 10. -/
theorem index_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 9 ∧ win0_7.index t (1 : Fin 2) = 0 :=
  (by decide +kernel : ∀ t : Fin grid0.N, _)

/-- Every row block of the result is some point's. -/
theorem index_onto : ∀ q0 : Fin 10, ∃ t : Fin cfg0.N, win0_7.index t = ![q0.val, 0] :=
  (by decide +kernel : ∀ q0 : Fin 10, ∃ t : Fin grid0.N, win0_7.index t = ![q0.val, 0])

/-! ## The input windows' blocks, of any arrays -/

/-- Row `p` of point `t`'s block of the first input is row `10000 T + p` of its array, `T` the output's row block. -/
theorem rows_block0 (t : Fin cfg0.N) (G : S100000x64.Idx → EReal) (p : Fin 10000) (k : Fin 64) (r : Fin 100000)
    (hr : r.val = win0_7.index t (0 : Fin 2) * 10000 + p.val) :
    ((cfg0.win 0).blk t).view.read (Elt Ideal) G (ix2 p k) = G (ix2 r k) := by
  obtain ⟨e0, e1, -⟩ := index_facts t
  show G (((cfg0.win 0).blk t).view.emb (ix2 p k)) = _
  refine congrArg G (funext fun a => Fin.ext ?_)
  match a with
  | ⟨0, _⟩ => show win0_0.index t (0 : Fin 2) * 10000 + 1 * p.val = r.val; omega
  | ⟨1, _⟩ => show win0_0.index t (1 : Fin 2) * 64 + 1 * k.val = k.val; omega

/-- The same for the second input, -/
theorem rows_block1 (t : Fin cfg0.N) (G : S100000x64.Idx → EReal) (p : Fin 10000) (k : Fin 64) (r : Fin 100000)
    (hr : r.val = win0_7.index t (0 : Fin 2) * 10000 + p.val) :
    ((cfg0.win 1).blk t).view.read (Elt Ideal) G (ix2 p k) = G (ix2 r k) := by
  obtain ⟨-, -, e0, e1, -⟩ := index_facts t
  show G (((cfg0.win 1).blk t).view.emb (ix2 p k)) = _
  refine congrArg G (funext fun a => Fin.ext ?_)
  match a with
  | ⟨0, _⟩ => show win0_1.index t (0 : Fin 2) * 10000 + 1 * p.val = r.val; omega
  | ⟨1, _⟩ => show win0_1.index t (1 : Fin 2) * 64 + 1 * k.val = k.val; omega

/-- and for the third. -/
theorem rows_block2 (t : Fin cfg0.N) (G : S100000x64.Idx → EReal) (p : Fin 10000) (k : Fin 64) (r : Fin 100000)
    (hr : r.val = win0_7.index t (0 : Fin 2) * 10000 + p.val) :
    ((cfg0.win 2).blk t).view.read (Elt Ideal) G (ix2 p k) = G (ix2 r k) := by
  obtain ⟨-, -, -, -, e0, e1, -⟩ := index_facts t
  show G (((cfg0.win 2).blk t).view.emb (ix2 p k)) = _
  refine congrArg G (funext fun a => Fin.ext ?_)
  match a with
  | ⟨0, _⟩ => show win0_2.index t (0 : Fin 2) * 10000 + 1 * p.val = r.val; omega
  | ⟨1, _⟩ => show win0_2.index t (1 : Fin 2) * 64 + 1 * k.val = k.val; omega

/-- A weight band's block is the band whole, at every point: -/
theorem whole_block3 (t : Fin cfg0.N) (G : S64x64.Idx → EReal) :
    (((cfg0.win 3).blk t).view.read (Elt Ideal) G : S64x64.Idx → EReal) = G := by
  obtain ⟨-, -, -, -, -, -, e0, e1, -⟩ := index_facts t
  funext y
  show G (((cfg0.win 3).blk t).view.emb y) = _
  refine congrArg G (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem whole_block4 (t : Fin cfg0.N) (G : S64x64.Idx → EReal) :
    (((cfg0.win 4).blk t).view.read (Elt Ideal) G : S64x64.Idx → EReal) = G := by
  obtain ⟨-, -, -, -, -, -, -, -, e0, e1, -⟩ := index_facts t
  funext y
  show G (((cfg0.win 4).blk t).view.emb y) = _
  refine congrArg G (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega
theorem whole_block5 (t : Fin cfg0.N) (G : S64x64.Idx → EReal) :
    (((cfg0.win 5).blk t).view.read (Elt Ideal) G : S64x64.Idx → EReal) = G := by
  obtain ⟨-, -, -, -, -, -, -, -, -, -, e0, e1, -⟩ := index_facts t
  funext y
  show G (((cfg0.win 5).blk t).view.emb y) = _
  refine congrArg G (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega
/-- and the bias row's block is the row whole. -/
theorem whole_block6 (t : Fin cfg0.N) (G : S1x64.Idx → EReal) :
    (((cfg0.win 6).blk t).view.read (Elt Ideal) G : S1x64.Idx → EReal) = G := by
  obtain ⟨-, -, -, -, -, -, -, -, -, -, -, -, e0, e1, -⟩ := index_facts t
  funext y
  show G (((cfg0.win 6).blk t).view.emb y) = _
  refine congrArg G (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-! ## One point's stored value against the whole arrays -/

/-- Over plain arrays: if the three row blocks are rows `10000 T + p` of three arrays and the bands and the bias row
    are given whole, the stored value at block element `j` is the band arrangement of the whole arrays at row
    `10000 T + j₀`, column `j₁`. -/
theorem stored_at (A0 A1 A2 : S100000x64.Idx → EReal) (W1 W2 W3 : S64x64.Idx → EReal) (B : S1x64.Idx → EReal)
    (x0 x1 x2 : S10000x64.Idx → EReal) (x3 x4 x5 : S64x64.Idx → EReal) (x6 : S1x64.Idx → EReal) (T : Nat)
    (h0 : ∀ (p : Fin 10000) (k : Fin 64) (r : Fin 100000), r.val = T * 10000 + p.val → x0 (ix2 p k) = A0 (ix2 r k))
    (h1 : ∀ (p : Fin 10000) (k : Fin 64) (r : Fin 100000), r.val = T * 10000 + p.val → x1 (ix2 p k) = A1 (ix2 r k))
    (h2 : ∀ (p : Fin 10000) (k : Fin 64) (r : Fin 100000), r.val = T * 10000 + p.val → x2 (ix2 p k) = A2 (ix2 r k))
    (h3 : x3 = W1) (h4 : x4 = W2) (h5 : x5 = W3) (h6 : x6 = B)
    (j : S10000x64.Idx) (r : Fin 100000) (q : Fin 64) (hr : r.val = T * 10000 + (j 0).val) (hq : q.val = (j 1).val) :
    k0_pay1 (F := Ideal) x0 x1 x2 x3 x4 x5 x6 j = Cert.Layer.bands (n := 100000) A0 A1 A2 W1 W2 W3 B r q := by
  subst h3 h4 h5 h6
  obtain ⟨p, q', rfl⟩ : ∃ (p : Fin 10000) (q' : Fin 64), j = ix2 p q' := ⟨j 0, j 1, eq_ix2 j⟩
  obtain rfl : q = q' := Fin.ext hq
  rw [payload_at]
  unfold Cert.Layer.bands
  simp only [h0 p _ r hr, h1 p _ r hr, h2 p _ r hr]

/-- The band arrangement as an array over [100000, 64]. -/
def bandsArr (A0 A1 A2 : S100000x64.Idx → EReal) (W1 W2 W3 : S64x64.Idx → EReal) (B : S1x64.Idx → EReal) :
    S100000x64.Idx → EReal :=
  fun i => Cert.Layer.bands (n := 100000) A0 A1 A2 W1 W2 W3 B (i 0) (i 1)

/-- At point `t`, of any arrays: the body's stored value over the windows' blocks is block `t` of the band
    arrangement of the whole arrays. -/
theorem stored_block (t : Fin cfg0.N) (A0 A1 A2 : S100000x64.Idx → EReal) (W1 W2 W3 : S64x64.Idx → EReal)
    (B : S1x64.Idx → EReal) (j : S10000x64.Idx) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) W1)
        (((cfg0.win 4).blk t).view.read (Elt Ideal) W2) (((cfg0.win 5).blk t).view.read (Elt Ideal) W3)
        (((cfg0.win 6).blk t).view.read (Elt Ideal) B) j
      = ((cfg0.win 7).blk t).view.read (Elt Ideal) (bandsArr A0 A1 A2 W1 W2 W3 B) j := by
  obtain ⟨-, -, -, -, -, -, -, -, -, -, -, -, -, -, -, e1⟩ := index_facts t
  show _ = Cert.Layer.bands (n := 100000) A0 A1 A2 W1 W2 W3 B ((((cfg0.win 7).blk t).view.emb j) 0)
    ((((cfg0.win 7).blk t).view.emb j) 1)
  exact stored_at A0 A1 A2 W1 W2 W3 B _ _ _ _ _ _ _ (win0_7.index t (0 : Fin 2))
    (fun p k r hr => rows_block0 t A0 p k r hr) (fun p k r hr => rows_block1 t A1 p k r hr)
    (fun p k r hr => rows_block2 t A2 p k r hr) (whole_block3 t W1) (whole_block4 t W2) (whole_block5 t W3)
    (whole_block6 t B) j _ _
    (by show win0_7.index t (0 : Fin 2) * 10000 + 1 * (j 0).val = _; omega)
    (by show win0_7.index t (1 : Fin 2) * 64 + 1 * (j 1).val = _; omega)

/-! ## The run's proof data -/

variable (m : (ℓ : Loc nD τ sig) → Buf (Elt Ideal) ℓ) (ρ : Dev nD → PrngReg)

/-- The array the call computes, over the arrays as it finds them. -/
def regionArr (c : Dev nD) : S100000x64.Idx → EReal :=
  bandsArr (V m c main_arg0) (V m c main_v9) (V m c main_v12) (V m c main_v13) (V m c main_v14) (V m c main_v15)
    (V m c main_v16)

/-- WHAT POINT `t` WRITES BACK is block `t` of that array. -/
theorem flushed_eq (c : Dev nD) (t : Fin cfg0.N) :
    (dats m 0 c).flushed 7 t = ((cfg0.win 7).blk t).view.read (Elt Ideal) (regionArr m c) := by
  rw [flushed7]
  unfold out0_7
  rw [View.canon_unit_zero offs_zero]
  simp only [View.ld_unit_zero (S := S10000x64) offs_zero, View.ld_unit_zero (S := S64x64) offs_zero,
    View.ld_unit_zero (S := S1x64) offs_zero]
  funext j
  exact stored_block t (V m c main_arg0) (V m c main_v9) (V m c main_v12) (V m c main_v13) (V m c main_v14)
    (V m c main_v15) (V m c main_v16) j

/-! ## The ten blocks tile the result -/

/-- An array index is in point `t`'s block iff each coordinate is in the block's range on its axis. -/
theorem mem_block (t : Fin cfg0.N) (i : S100000x64.Idx) :
    i ∈ ((cfg0.win 7).blk t).view.set ↔ ∀ a : Fin 2, win0_7.index t a * S10000x64.size a ≤ (i a).val
      ∧ (i a).val < win0_7.index t a * S10000x64.size a + S10000x64.size a := by
  show i ∈ ((View.whole main_v17).slice (win0_7.rect t)).set ↔ _
  rw [View.set_slice_whole, Rect.mem_set_unit]
  exact Iff.rfl

/-- Row `r` of the result is in the block of the point whose row block is `r / 10000`. -/
theorem covered (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  obtain ⟨t, ht⟩ := index_onto ⟨(i 0).val / 10000, by omega⟩
  have q0 : win0_7.index t (0 : Fin 2) = (i 0).val / 10000 := congrFun ht 0
  have q1 : win0_7.index t (1 : Fin 2) = 0 := congrFun ht 1
  refine ⟨t, flush0_7 t, ?_⟩
  rw [mem_block]
  intro a
  match a with
  | ⟨0, _⟩ =>
    show win0_7.index t (0 : Fin 2) * 10000 ≤ (i 0).val ∧ (i 0).val < win0_7.index t (0 : Fin 2) * 10000 + 10000
    omega
  | ⟨1, _⟩ =>
    show win0_7.index t (1 : Fin 2) * 64 ≤ (i 1).val ∧ (i 1).val < win0_7.index t (1 : Fin 2) * 64 + 64
    omega

/-- So the result array ends holding the array the call computes. -/
theorem result_region (c : Dev nD) : (dats m 0 c).arrAt 7 cfg0.N = regionArr m c :=
  (dats m 0 c).arrAt_eq_of_cover 7 (regionArr m c) (fun t _ => flushed_eq m c t) covered

/-- THE RESULT ARRAY after the run: the layer over the node features, the reference's two message stages of the
    arguments, the whole weight and the bias. -/
theorem result_layer (c : Dev nD) :
    (dats m 0 c).arrAt 7 cfg0.N
      = Cert.Layer.layerArr (m ((c : Thread nD τ).loc main_arg0))
          (Cert.ReferenceIdeal.Read.val_main_v9 (F := Ideal) (m ((c : Thread nD τ).loc main_arg0))
            (m ((c : Thread nD τ).loc main_arg2)) (m ((c : Thread nD τ).loc main_arg3)))
          (Cert.ReferenceIdeal.Read.val_main_v12 (F := Ideal) (m ((c : Thread nD τ).loc main_arg1))
            (m ((c : Thread nD τ).loc main_arg3)))
          (m ((c : Thread nD τ).loc main_arg4)) (m ((c : Thread nD τ).loc main_arg5)) := by
  rw [result_region]
  unfold regionArr
  rw [V_main_arg0, node_messages_eq, edge_messages_eq, band1_eq, band2_eq, band3_eq, bias_row_eq]
  funext i
  exact Cert.Layer.bands_of_slices _ _ _ _ _ _ _ _ _ _ _

end Cert.KernelLayer

end
-- ==== Proof.lean ====
/-
  One graph layer, `relu(concat[h, Σ_in h_src, Σ_in e] · W + b)`, computed two ways.

  Both programs first build the two aggregated message arrays by the same host operations (a gather of the node
  features at the source indices and two scatter-adds at the destination indices). The kernel then multiplies the
  node features and the two message arrays, ten thousand rows at a time, against the three [64, 64] row bands of
  the weight, adds the three products and the bias, and clamps at zero; the reference concatenates the three arrays
  to [N, 192], multiplies by the whole weight, adds the bias and clamps. Over the extended reals the casts to bf16
  are the identity and each product is an exact sum, so both results are, at every node and output feature,
        max ( Σ_k h·W₁ + Σ_k m_h·W₂ + Σ_k m_e·W₃ + b , 0 ),
  the reference's single sum over 192 columns being the sum of its three stretches of 64 (`Layer.lean`). Only
  commutativity and associativity of addition are used: the finiteness of the inputs is never needed.

  `Layer.lean`        the layer as a function of plain arrays, and the split of the 192-term sum;
  `RefLayer.lean`     the reference's last stage is that function;
  `KernelPayload.lean` the kernel body's stored value at an element of its block;
  `HostPrefix.lean`   what the host operations before the call leave in the buffers the call reads;
  `KernelArray.lean`  from the ten blocks to the whole result array.
  The three frames are the generated ones; the idealization ledger is empty.
-/
import proofs.«140429_j64158221468060_1_alg».proof.Defs
import proofs.«140429_j64158221468060_1_alg».proof.Proof.Gen.Kernel
import proofs.«140429_j64158221468060_1_alg».proof.Proof.Gen.Kernel.Skeleton
import proofs.«140429_j64158221468060_1_alg».proof.Proof.Gen.Kernel.Launch
import proofs.«140429_j64158221468060_1_alg».proof.Proof.Gen.Kernel.Points
import proofs.«140429_j64158221468060_1_alg».proof.Proof.Gen.Kernel.Frame
import proofs.«140429_j64158221468060_1_alg».proof.Proof.Gen.KernelIdeal
import proofs.«140429_j64158221468060_1_alg».proof.Proof.Gen.KernelIdeal.Skeleton
import proofs.«140429_j64158221468060_1_alg».proof.Proof.Gen.KernelIdeal.Launch
import proofs.«140429_j64158221468060_1_alg».proof.Proof.Gen.KernelIdeal.Points
import proofs.«140429_j64158221468060_1_alg».proof.Proof.Gen.KernelIdeal.Frame
import proofs.«140429_j64158221468060_1_alg».proof.Proof.Gen.ReferenceIdeal
import proofs.«140429_j64158221468060_1_alg».proof.Proof.Gen.Pre_finite_inputs
import proofs.«140429_j64158221468060_1_alg».proof.Proof.Gen.KernelIdeal.Value
import proofs.«140429_j64158221468060_1_alg».proof.Proof.Gen.ReferenceIdeal.Run
import proofs.«140429_j64158221468060_1_alg».proof.Proof.Gen.ReferenceIdeal.Read
import proofs.«140429_j64158221468060_1_alg».proof.Proof.RefLayer
import proofs.«140429_j64158221468060_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the layer of the arguments: the kernel by its ten blocks (`KernelLayer.result_layer`),
    the reference by its last stage (`RefLayer.val_eq_layer`), read at arguments that agree. -/
theorem algebraic : Cert.algebraic_KernelIdeal_ReferenceIdeal := by
  intro m ρ m' ρ' _ hagree
  refine ⟨fun c => Cert.Layer.layerArr (m ((c.tc : Thread _ _).loc Cert.KernelIdeal.main_arg0))
      (Cert.ReferenceIdeal.Read.val_main_v9 (F := Ideal) (m ((c.tc : Thread _ _).loc Cert.KernelIdeal.main_arg0))
        (m ((c.tc : Thread _ _).loc Cert.KernelIdeal.main_arg2)) (m ((c.tc : Thread _ _).loc Cert.KernelIdeal.main_arg3)))
      (Cert.ReferenceIdeal.Read.val_main_v12 (F := Ideal) (m ((c.tc : Thread _ _).loc Cert.KernelIdeal.main_arg1))
        (m ((c.tc : Thread _ _).loc Cert.KernelIdeal.main_arg3)))
      (m ((c.tc : Thread _ _).loc Cert.KernelIdeal.main_arg4)) (m ((c.tc : Thread _ _).loc Cert.KernelIdeal.main_arg5)), ?_, ?_⟩
  · exact (θ_run Cert.KernelIdeal.defs _ _).mono
      (fun r h c => ⟨(h c).1.trans (Cert.KernelLayer.result_layer m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.RefLayer.val_eq_layer, (hagree c).1, (hagree c).2.1,
      (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
